-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S784x100 : S_.BroadcastsInDim S784x100 (![] : Fin 0 → Fin S784x100.rank)
  reducesTo_S784x100_S_d0_1 : S784x100.ReducesTo [0, 1] S_
  bcast_S_S100 : S_.BroadcastsInDim S100 (![] : Fin 0 → Fin S100.rank)
  reducesTo_S100_S_d0 : S100.ReducesTo [0] S_
  bcast_S_S100x10 : S_.BroadcastsInDim S100x10 (![] : Fin 0 → Fin S100x10.rank)
  reducesTo_S100x10_S_d0_1 : S100x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S100x10 .f32) (main_arg5 : FVec F S10 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x10 .f32 := Host.absf main_arg4
  let main_cst_6 : FVec F S_ .f32 := constant S_ .f32 0x7F800000#32
  let main_v20 : FVec F S100x10 .f32 := broadcastInDim S100x10 ![] bcast_S_S100x10 main_cst_6
  let main_v21 : IVec S100x10 1 := cmpf .olt main_v19 main_v20
  let main_c_7 : IVec S_ 1 := constantI S_ 1 1#1
  let main_v22 : IVec S_ 1 := (fun x v => Host.reduce IntOp.andi x v reducesTo_S100x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S65536x28x28 .f32) (main_arg1 : FVec F S784x100 .f32) (main_arg2 : FVec F S100 .f32) (main_arg3 : FVec F S100 .f32) (main_arg4 : FVec F S100x10 .f32) (main_arg5 : FVec F S10 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S784x100 .f32 := Host.absf main_arg1
  let main_cst_0 : FVec F S_ .f32 := constant S_ .f32 0x7F800000#32
  let main_v5 : FVec F S784x100 .f32 := broadcastInDim S784x100 ![] bcast_S_S784x100 main_cst_0
  let main_v6 : IVec S784x100 1 := cmpf .olt main_v4 main_v5
  let main_c_1 : IVec S_ 1 := constantI S_ 1 1#1
  let main_v7 : IVec S_ 1 := (fun x v => Host.reduce IntOp.andi x v reducesTo_S784x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_v13 main_v16
-- ==== Kernel.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S65536x784 : Shape := ⟨2, ![65536, 784]⟩
abbrev S1x100 : Shape := ⟨2, ![1, 100]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x100 : Shape := ⟨2, ![2048, 100]⟩
abbrev S2048x1 : Shape := ⟨2, ![2048, 1]⟩
abbrev S2048 : Shape := ⟨1, ![2048]⟩

abbrev nBuf : Space → Nat
  | .hbm => 13
  | .vmem => 11
  | .smem => 0
  | _ => 0

abbrev bufTy : (tb : Table) → Fin (tcTables nBuf tb) → BufTy
  | .hbm, ⟨0, _⟩ => ⟨S65536x28x28, .f32⟩
  | .hbm, ⟨1, _⟩ => ⟨S784x100, .f32⟩
  | .hbm, ⟨2, _⟩ => ⟨S100, .f32⟩
  | .hbm, ⟨3, _⟩ => ⟨S100, .f32⟩
  | .hbm, ⟨4, _⟩ => ⟨S100x10, .f32⟩
  | .hbm, ⟨5, _⟩ => ⟨S10, .f32⟩
  | .hbm, ⟨6, _⟩ => ⟨S65536x784, .f32⟩
  | .hbm, ⟨7, _⟩ => ⟨S1x100, .f32⟩
  | .hbm, ⟨8, _⟩ => ⟨S1x100, .f32⟩
  | .hbm, ⟨9, _⟩ => ⟨S1x10, .f32⟩
  | .hbm, ⟨10, _⟩ => ⟨S65536x10, .f32⟩
  | .hbm, ⟨11, _⟩ => ⟨S1x100, .f32⟩
  | .hbm, ⟨12, _⟩ => ⟨S100, .f32⟩
  | .local _ .vmem, ⟨0, _⟩ => ⟨S2048x784, .f32⟩
  | .local _ .vmem, ⟨1, _⟩ => ⟨S2048x784, .f32⟩
  | .local _ .vmem, ⟨2, _⟩ => ⟨S784x100, .f32⟩
  | .local _ .vmem, ⟨3, _⟩ => ⟨S1x100, .f32⟩
  | .local _ .vmem, ⟨4, _⟩ => ⟨S1x100, .f32⟩
  | .local _ .vmem, ⟨5, _⟩ => ⟨S100x10, .f32⟩
  | .local _ .vmem, ⟨6, _⟩ => ⟨S1x10, .f32⟩
  | .local _ .vmem, ⟨7, _⟩ => ⟨S2048x10, .f32⟩
  | .local _ .vmem, ⟨8, _⟩ => ⟨S2048x10, .f32⟩
  | .local _ .vmem, ⟨9, _⟩ => ⟨S1x100, .f32⟩
  | .local _ .vmem, ⟨10, _⟩ => ⟨S1x100, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_13 : BitVec 32 := 0#32
  let v37 : BitVec 1 := Scalar.cmpi .ne v36 c0_i32_13
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S65536x28x28_S65536x784 : S65536x28x28.ShapeCasts S65536x784
  shapeCasts_S100_S1x100 : S100.ShapeCasts S1x100
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  bitsLt_bf16_f32 : FTy.bits .bf16 < FTy.bits .f32
  inb_S784x100_S784x100_0_0 : ∀ a, (![0, 0] : Fin 2 → Nat) a + S784x100.size a ≤ S784x100.size a
  h_S784x100 : 0 < S784x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  iota_S2048x1_d0_w32 : S2048x1.Iotas .tc 32 [0]
  natLt_1_32 : 1 < 32
  broadcasts_S2048x1_S2048x100 : S2048x1.Broadcasts S2048x100
  reduces_S2048x100_S100 : S2048x100.Reduces [0] S100
  inb_S100x10_S100x10_0_0 : ∀ a, (![0, 0] : Fin 2 → Nat) a + S100x10.size a ≤ S100x10.size a
  h_S100x10 : 0 < S100x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  shapeCasts_S1x100_S100 : S1x100.ShapeCasts S100
  dot_S2048x784_S784x100_S2048x100_1_0_0_1_n_n_wf : DotDims.WF S2048x784 S784x100 S2048x100 [1] [0] [0] [1] [] []
  dot_S2048x100_S100x10_S2048x10_1_0_0_1_n_n_wf : DotDims.WF S2048x100 S100x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x100.size a ≤ S784x100.size a
  hwx0_1 : ∀ i : grid0.Coords, EltTy.bits .f32 = 32 ∨ (Rect.block (s := S784x100) S784x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x10.size a ≤ S100x10.size a
  hwx0_4 : ∀ i : grid0.Coords, EltTy.bits .f32 = 32 ∨ (Rect.block (s := S100x10) S100x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x10.size a ≤ S65536x10.size a
  hwx0_6 : ∀ i : grid0.Coords, EltTy.bits .f32 = 32 ∨ (Rect.block (s := S65536x10) S2048x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x100.size a ≤ S1x100.size a
  hwx0_7 : ∀ i : grid0.Coords, EltTy.bits .f32 = 32 ∨ (Rect.block (s := S1x100) S1x100.size (cc0_transform_7 i) (hinb0_7 i)).WholeWords (EltTy.packing .f32)

variable [Facts₀]

def dot_S2048x784_S784x100_S2048x100_1_0_0_1_n_n : DotDims S2048x784 S784x100 S2048x100 where
  lhsContracting := [1]
  rhsContracting := [0]
  lhsNonContracting := [0]
  rhsNonContracting := [1]
  lhsBatch := []
  rhsBatch := []
  wf := dot_S2048x784_S784x100_S2048x100_1_0_0_1_n_n_wf
def dot_S2048x100_S100x10_S2048x10_1_0_0_1_n_n : DotDims S2048x100 S100x10 S2048x10 where
  lhsContracting := [1]
  rhsContracting := [0]
  lhsNonContracting := [0]
  rhsNonContracting := [1]
  lhsBatch := []
  rhsBatch := []
  wf := dot_S2048x100_S100x10_S2048x10_1_0_0_1_n_n_wf

abbrev win0_0 : Pipeline.Window sig grid0 :=
  Pipeline.Window.ofSpec (Memref.whole main_v0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S2048x10.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x100.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S65536x28x28 : Shape := ⟨3, ![65536, 28, 28]⟩
abbrev S784x100 : Shape := ⟨2, ![784, 100]⟩
abbrev S100 : Shape := ⟨1, ![100]⟩
abbrev S100x10 : Shape := ⟨2, ![100, 10]⟩
abbrev S10 : Shape := ⟨1, ![10]⟩
abbrev S65536x784 : Shape := ⟨2, ![65536, 784]⟩
abbrev S65536x100 : Shape := ⟨2, ![65536, 100]⟩
abbrev S1x100 : Shape := ⟨2, ![1, 100]⟩
abbrev S_ : Shape := ⟨0, ![]⟩
abbrev S65535x100 : Shape := ⟨2, ![65535, 100]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S784x100, .f32⟩
  | .hbm, ⟨2, _⟩ => ⟨S100, .f32⟩
  | .hbm, ⟨3, _⟩ => ⟨S100, .f32⟩
  | .hbm, ⟨4, _⟩ => ⟨S100x10, .f32⟩
  | .hbm, ⟨5, _⟩ => ⟨S10, .f32⟩
  | .hbm, ⟨6, _⟩ => ⟨S65536x784, .f32⟩
  | .hbm, ⟨7, _⟩ => ⟨S65536x100, .f32⟩
  | .hbm, ⟨8, _⟩ => ⟨S1x100, .f32⟩
  | .hbm, ⟨9, _⟩ => ⟨S65536x100, .f32⟩
  | .hbm, ⟨10, _⟩ => ⟨S65536x100, .f32⟩
  | .hbm, ⟨11, _⟩ => ⟨S_, .f32⟩
  | .hbm, ⟨12, _⟩ => ⟨S65536x100, .f32⟩
  | .hbm, ⟨13, _⟩ => ⟨S65536x100, .f32⟩
  | .hbm, ⟨14, _⟩ => ⟨S65535x100, .f32⟩
  | .hbm, ⟨15, _⟩ => ⟨S_, .f32⟩
  | .hbm, ⟨16, _⟩ => ⟨S65535x100, .f32⟩
  | .hbm, ⟨17, _⟩ => ⟨S65535x100, .i1⟩
  | .hbm, ⟨18, _⟩ => ⟨S65535x100, .f32⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S65536x10, .f32⟩
  | .hbm, ⟨23, _⟩ => ⟨S1x10, .f32⟩
  | .hbm, ⟨24, _⟩ => ⟨S65536x10, .f32⟩
  | .hbm, ⟨25, _⟩ => ⟨S65536x10, .f32⟩
  | .hbm, ⟨26, _⟩ => ⟨S_, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S65536x1, .f32⟩
  | .hbm, ⟨32, _⟩ => ⟨S65536x10, .f32⟩
  | .hbm, ⟨33, _⟩ => ⟨S65536x10, .f32⟩
  | .hbm, ⟨34, _⟩ => ⟨S65536x10, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S65536x10, .f32⟩
  | .hbm, ⟨39, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S65536x28x28_S65536x784 : S65536x28x28.ShapeCasts S65536x784
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  slices_S65536x100_S65535x100_0_0 : S65536x100.Slices ![0, 0] S65535x100
  bcast_S_S65535x100 : S_.BroadcastsInDim S65535x100 (![] : Fin 0 → Fin S65535x100.rank)
  reducesTo_S65535x100_S100_d0 : S65535x100.ReducesTo [0] S100
  h_S_ : 0 < S_.numel
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x100_S65536x100_1_0_0_1_n_n_wf : DotDims.WF S65536x784 S784x100 S65536x100 [1] [0] [0] [1] [] []
  dot_S65536x100_S100x10_S65536x10_1_0_0_1_n_n_wf : DotDims.WF S65536x100 S100x10 S65536x10 [1] [0] [0] [1] [] []

variable [Facts₀]

def dot_S65536x784_S784x100_S65536x100_1_0_0_1_n_n : DotDims S65536x784 S784x100 S65536x100 where
  lhsContracting := [1]
  rhsContracting := [0]
  lhsNonContracting := [0]
  rhsNonContracting := [1]
  lhsBatch := []
  rhsBatch := []
  wf := dot_S65536x784_S784x100_S65536x100_1_0_0_1_n_n_wf
def dot_S65536x100_S100x10_S65536x10_1_0_0_1_n_n : DotDims S65536x100 S100x10 S65536x10 where
  lhsContracting := [1]
  rhsContracting := [0]
  lhsNonContracting := [0]
  rhsNonContracting := [1]
  lhsBatch := []
  rhsBatch := []
  wf := dot_S65536x100_S100x10_S65536x10_1_0_0_1_n_n_wf

class Facts : Prop extends Facts₀ where

variable [Facts]
-- ==== Proof.KernelPieces.lean ====
/-
  What each control case of the kernel body leaves behind, as the body's own pure terms of the values it loaded.

  The body has three cases over the 32 grid points: the first point (the counter block is read and the first tile's count
  added to it), the points in between (the tile's count is added to the carried counts) and the last point (the same, and the
  carried counts are copied to the second output). In every case the probabilities block is one covering store of the
  softmax term of the hidden block; the carried counts are one covering store of the old counts plus the tile's count. At
  the last point the second output is stored from the carried buffer read back after that store, so it holds the same sum.
  All of it holds for any float values.
-/
import proofs.«170248_j59803124630057_1_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At the first point the probabilities block is the softmax term of the hidden block. -/
theorem probs_A (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : cond0_0 i) (hc1 : ¬cond0_1 i) (hc2 : ¬cond0_2 i) (x0 : Vec F S2048x784 .f32) (x1 : Vec F S784x100 .f32) (x2 : Vec F S1x100 .f32) (x3 : Vec F S1x100 .f32) (x4 : Vec F S100x10 .f32) (x5 : Vec F S1x10 .f32) :
    out0_A_6 c i arg1 harg1 arg2 harg2 arg3 harg3 arg4 harg4 arg5 harg5 arg6 harg6 arg7 harg7 arg8 harg8 arg9 harg9 hc0 hc1 hc2 x0 x1 x2 x3 x4 x5 = k0_pay1 (k0_pay2 x0 x1 x2) x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At the first point the carried counts are the counter block plus the first tile's count. -/
theorem counts_A (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : cond0_0 i) (hc1 : ¬cond0_1 i) (hc2 : ¬cond0_2 i) (x0 : Vec F S2048x784 .f32) (x1 : Vec F S784x100 .f32) (x2 : Vec F S1x100 .f32) (x3 : Vec F S1x100 .f32) (x4 : Vec F S100x10 .f32) (x5 : Vec F S1x10 .f32) :
    sout0_A_0 c i arg1 harg1 arg2 harg2 arg3 harg3 arg4 harg4 arg5 harg5 arg6 harg6 arg7 harg7 arg8 harg8 arg9 harg9 hc0 hc1 hc2 x0 x1 x2 x3 x4 x5 = k0_pay4 i x0 x1 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At a point in between the probabilities block is the softmax term of the hidden block. -/
theorem probs_B (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : ¬cond0_0 i) (hc1 : cond0_1 i) (hc2 : ¬cond0_2 i) (x0 : Vec F S2048x784 .f32) (x1 : Vec F S784x100 .f32) (x2 : Vec F S1x100 .f32) (x3 : Vec F S1x100 .f32) (x4 : Vec F S100x10 .f32) (x5 : Vec F S1x10 .f32) (xs0 : Vec F S1x100 .f32) :
    out0_B_6 c i arg1 harg1 arg2 harg2 arg3 harg3 arg4 harg4 arg5 harg5 arg6 harg6 arg7 harg7 arg8 harg8 arg9 harg9 hc0 hc1 hc2 x0 x1 x2 x3 x4 x5 xs0 = k0_pay1 (k0_pay2 x0 x1 x2) x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At a point in between the carried counts are what the point before left plus this tile's count. -/
theorem counts_B (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : ¬cond0_0 i) (hc1 : cond0_1 i) (hc2 : ¬cond0_2 i) (x0 : Vec F S2048x784 .f32) (x1 : Vec F S784x100 .f32) (x2 : Vec F S1x100 .f32) (x3 : Vec F S1x100 .f32) (x4 : Vec F S100x10 .f32) (x5 : Vec F S1x10 .f32) (xs0 : Vec F S1x100 .f32) :
    sout0_B_0 c i arg1 harg1 arg2 harg2 arg3 harg3 arg4 harg4 arg5 harg5 arg6 harg6 arg7 harg7 arg8 harg8 arg9 harg9 hc0 hc1 hc2 x0 x1 x2 x3 x4 x5 xs0 = k0_pay5 i x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 hc2 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At the last point the probabilities block is the softmax term of the hidden block. -/
theorem probs_C (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : ¬cond0_0 i) (hc1 : cond0_1 i) (hc2 : cond0_2 i) (x0 : Vec F S2048x784 .f32) (x1 : Vec F S784x100 .f32) (x2 : Vec F S1x100 .f32) (x3 : Vec F S1x100 .f32) (x4 : Vec F S100x10 .f32) (x5 : Vec F S1x10 .f32) (xs0 : Vec F S1x100 .f32) :
    out0_C_6 c i arg1 harg1 arg2 harg2 arg3 harg3 arg4 harg4 arg5 harg5 arg6 harg6 arg7 harg7 arg8 harg8 arg9 harg9 hc0 hc1 hc2 x0 x1 x2 x3 x4 x5 xs0 = k0_pay1 (k0_pay2 x0 x1 x2) x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At the last point the carried counts are what the point before left plus the last tile's count. -/
theorem counts_C (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : ¬cond0_0 i) (hc1 : cond0_1 i) (hc2 : cond0_2 i) (x0 : Vec F S2048x784 .f32) (x1 : Vec F S784x100 .f32) (x2 : Vec F S1x100 .f32) (x3 : Vec F S1x100 .f32) (x4 : Vec F S100x10 .f32) (x5 : Vec F S1x10 .f32) (xs0 : Vec F S1x100 .f32) :
    sout0_C_0 c i arg1 harg1 arg2 harg2 arg3 harg3 arg4 harg4 arg5 harg5 arg6 harg6 arg7 harg7 arg8 harg8 arg9 harg9 hc0 hc1 hc2 x0 x1 x2 x3 x4 x5 xs0 = k0_pay5 i x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 hc2 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

/-- At the last point the second output holds the carried counts as just updated: the buffer is read back after its store. -/
theorem freq_C (c : Dev nD) (i : grid0.Coords) (arg1 : Memref sig .tc .vmem S2048x784 .f32) (harg1 : arg1.IsWhole) (arg2 : Memref sig .tc .vmem S784x100 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S100x10 .f32) (harg5 : arg5.IsWhole) (arg6 : Memref sig .tc .vmem S1x10 .f32) (harg6 : arg6.IsWhole) (arg7 : Memref sig .tc .vmem S2048x10 .f32) (harg7 : arg7.IsWhole) (arg8 : Memref sig .tc .vmem S1x100 .f32) (harg8 : arg8.IsWhole) (arg9 : Memref sig .tc .vmem S1x100 .f32) (harg9 : arg9.IsWhole) (hc0 : ¬cond0_0 i) (hc1 : cond0_1 i) (hc2 : cond0_2 i) (x0 : Vec F S2048x784 .f32) (x1 : Vec F S784x100 .f32) (x2 : Vec F S1x100 .f32) (x3 : Vec F S1x100 .f32) (x4 : Vec F S100x10 .f32) (x5 : Vec F S1x10 .f32) (xs0 : Vec F S1x100 .f32) :
    out0_C_7 c i arg1 harg1 arg2 harg2 arg3 harg3 arg4 harg4 arg5 harg5 arg6 harg6 arg7 harg7 arg8 harg8 arg9 harg9 hc0 hc1 hc2 x0 x1 x2 x3 x4 x5 xs0 = k0_pay5 i x0 x1 x2 xs0 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 hc2 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S2048x784) hz, View.ld_unit_zero (S := S784x100) hz, View.ld_unit_zero (S := S1x100) hz, View.ld_unit_zero (S := S100x10) hz, View.ld_unit_zero (S := S1x10) hz, View.readCov_unit_zero (S := S1x100) _ hz]

end Cert.KernelIdeal.Pieces

end
-- ==== Proof.KernelPoints.lean ====
/-
  What the probabilities block, the carried counts and the second output hold after each grid point, as the body's pure
  terms of that point's blocks: the case the point falls in is decided by its position (first, in between, last), and in
  each case the contents are the terms found for that case. The carried counts after a point are a term of the counts the
  point before left.
-/
import proofs.«170248_j59803124630057_1_alg».proof.Proof.Gen.KernelIdeal.Frame
import proofs.«170248_j59803124630057_1_alg».proof.Proof.KernelPieces
set_option maxRecDepth 16384

noncomputable section

open Idealize.ShloMosaic Idealize.ShloMosaic.TcCoe Idealize.SL.Sem Idealize.ShloMosaic.Tactic
open Idealize.ShloMosaic.Pipeline (Dat)

namespace Cert.KernelIdeal.Points

open Cert.KernelIdeal Cert.KernelIdeal.Gen

variable {F : FTy → Type} [FloatOps F]

variable (m : (ℓ : Loc nD τ sig) → Buf (Elt F) ℓ)

theorem N_eq : cfg0.N = 32 := N_0

/-- After every point the probabilities block is the softmax term of the point's hidden block. -/
theorem probs_at (c : Dev nD) (t : Fin cfg0.N) :
    (outsAt0 m c t.val t.isLt).1 = k0_pay1 (k0_pay2 (iblk m c 0 t) (iblk m c 1 t) (iblk m c 2 t)) (iblk m c 4 t) (iblk m c 5 t) := by
  have hN : t.val < 32 := lt_of_lt_of_eq t.isLt N_eq
  by_cases h0 : t.val % 32 = 0
  · have h1 : ¬1 ≤ t.val := by omega
    have h2 : ¬t.val % 32 = 31 := by omega
    rw [outsAt0_A m c t h0 h1 h2]; dsimp only
    exact Pieces.probs_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)
  · have h1 : 1 ≤ t.val := by omega
    by_cases h2 : t.val % 32 = 31
    · rw [outsAt0_C m c t h0 h1 h2]; dsimp only
      exact Pieces.probs_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2
    · rw [outsAt0_B m c t h0 h1 h2]; dsimp only
      exact Pieces.probs_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- After the first point the carried counts are the counter block plus the first tile's count. -/
theorem counts_first (c : Dev nD) (t : Fin cfg0.N) (hz : t.val = 0) :
    (outsAt0 m c t.val t.isLt).2.2 = k0_pay4 (grid0.coords t) (iblk m c 0 t) (iblk m c 1 t) (iblk m c 2 t) (iblk m c 3 t) := by
  have h0 : t.val % 32 = 0 := by omega
  have h1 : ¬1 ≤ t.val := by omega
  have h2 : ¬t.val % 32 = 31 := by omega
  rw [outsAt0_A m c t h0 h1 h2]; dsimp only
  exact Pieces.counts_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)

/-- After any later point the carried counts are what the point before left plus this tile's count. -/
theorem counts_next (c : Dev nD) (t : Fin cfg0.N) (hp : 1 ≤ t.val) :
    (outsAt0 m c t.val t.isLt).2.2 = k0_pay5 (grid0.coords t) (iblk m c 0 t) (iblk m c 1 t) (iblk m c 2 t) (outsAt0 m c (t.val - 1) (Nat.lt_of_le_of_lt (Nat.sub_le _ _) t.isLt)).2.2 := by
  have hN : t.val < 32 := lt_of_lt_of_eq t.isLt N_eq
  have h0 : ¬t.val % 32 = 0 := by omega
  have h1 : 1 ≤ t.val := hp
  by_cases h2 : t.val % 32 = 31
  · rw [outsAt0_C m c t h0 hp h2]; dsimp only
    exact Pieces.counts_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2
  · rw [outsAt0_B m c t h0 hp h2]; dsimp only
    exact Pieces.counts_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- After the last point the second output holds the same sum as the carried counts. -/
theorem freq_last (c : Dev nD) (t : Fin cfg0.N) (hl : t.val = 31) :
    (outsAt0 m c t.val t.isLt).2.1 = k0_pay5 (grid0.coords t) (iblk m c 0 t) (iblk m c 1 t) (iblk m c 2 t) (outsAt0 m c (t.val - 1) (Nat.lt_of_le_of_lt (Nat.sub_le _ _) t.isLt)).2.2 := by
  have h0 : ¬t.val % 32 = 0 := by omega
  have h1 : 1 ≤ t.val := by omega
  have h2 : t.val % 32 = 31 := by omega
  rw [outsAt0_C m c t h0 h1 h2]; dsimp only
  exact Pieces.freq_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2

end Cert.KernelIdeal.Points

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Classifier.lean ====
/-
  A two-layer classifier, entry by entry on the extended reals, and the laws that join a count taken tile by tile
  with the same count taken at once.

  Row `r` of the input `X : [M, 784]` goes through a rectified affine layer into 100 hidden units,
  `H (r, j) = max (∑ k, X (r, k) · W₁ (k, j) + b₁ j) 0`, then through an affine layer into 10 logits,
  `L (r, o) = ∑ j, H (r, j) · W₂ (j, o) + b₂ o`, and the logits of a row are normalised by a softmax taken against
  the row's maximum: `exp (L (r, o) - μ r) / ∑ o', exp (L (r, o') - μ r)` with `μ r = max (-∞) (max over o' of L (r, o'))`.
  Every entry of row `r` of the result depends on row `r` of `X` only (`hiddenLayer_congr`, `logits_congr`, `softmax_congr`,
  `classify_congr`), so a block of rows of `X` gives the same entries as the whole of `X` at the block's rows.

  Beside it a counter per hidden unit is advanced by the number of rows, among all but the last one, at which the unit
  is above zero (`fires`). Counting tile by tile — 32 tiles of 2048 rows, each row's contribution multiplied by a mask that
  is 0 at the very last row 65535 and 1 elsewhere, the tiles' sums added to the counter one after the other — gives the
  same number as one sum over the first 65535 rows: addition on the extended reals is commutative and associative, the
  mask's 1 is a unit and its 0 annihilates a contribution that is itself 0 or 1 (`tiles_sum`, `tally_eq`, `tally_last`).
  No finiteness is needed anywhere.
-/
import Idealize.ShloMosaic.PureOps.Ideal.Laws
import Idealize.ShloMosaic.Lib.ValueIdx
import proofs.«170248_j59803124630057_1_alg».proof.Proof.LibDense
import proofs.«170248_j59803124630057_1_alg».proof.Proof.LibBlockSum

noncomputable section

open scoped BigOperators

namespace Cert.Classifier

open Idealize.ShloMosaic Idealize.ShloMosaic.ValueIdx Cert.Lib.Dense

/-- The f32 words of `0`, `1` and `-∞` as the extended reals they denote. Where both programs carry the same word it is
    never evaluated. -/
abbrev zeroW : EReal := Ideal.ofBits .f32 0x00000000#32
abbrev oneW : EReal := Ideal.ofBits .f32 0x3F800000#32
abbrev negInfW : EReal := Ideal.ofBits .f32 0xFF800000#32

theorem zeroW_eq : zeroW = 0 := Ideal.ofBits_zero_f32
theorem oneW_eq : oneW = 1 := IdealRules.sign_bit.ideal_onePat .f32

/-! ## The layers -/

/-- The rectified hidden layer of `M` rows. -/
def hiddenLayer {M : ℕ} (X : (⟨2, ![M, 784]⟩ : Shape).Idx → EReal) (W : (⟨2, ![784, 100]⟩ : Shape).Idx → EReal)
    (B : (⟨2, ![1, 100]⟩ : Shape).Idx → EReal) : (⟨2, ![M, 100]⟩ : Shape).Idx → EReal :=
  fun j => max (affine X W B j) zeroW

/-- The output layer's logits. -/
def logits {M : ℕ} (H : (⟨2, ![M, 100]⟩ : Shape).Idx → EReal) (W : (⟨2, ![100, 10]⟩ : Shape).Idx → EReal)
    (B : (⟨2, ![1, 10]⟩ : Shape).Idx → EReal) : (⟨2, ![M, 10]⟩ : Shape).Idx → EReal :=
  affine H W B

/-- The maximum a row's softmax is taken against: the largest of the row's ten logits, and never below `-∞`'s word. -/
def rowMax {M : ℕ} (L : (⟨2, ![M, 10]⟩ : Shape).Idx → EReal) (r : Fin M) : EReal :=
  max negInfW ((Finset.univ : Finset (Fin 10)).fold max negInfW fun k => L (ix2 r k))

/-- The softmax of each row of ten logits. -/
def softmax {M : ℕ} (L : (⟨2, ![M, 10]⟩ : Shape).Idx → EReal) : (⟨2, ![M, 10]⟩ : Shape).Idx → EReal :=
  fun j => Ideal.div (Ideal.exp (L j - rowMax L (j 0))) (∑ k : Fin 10, Ideal.exp (L (ix2 (j 0) k) - rowMax L (j 0)))

/-- The classifier: class probabilities of every row. -/
def classify {M : ℕ} (X : (⟨2, ![M, 784]⟩ : Shape).Idx → EReal) (W₁ : (⟨2, ![784, 100]⟩ : Shape).Idx → EReal)
    (B₁ : (⟨2, ![1, 100]⟩ : Shape).Idx → EReal) (W₂ : (⟨2, ![100, 10]⟩ : Shape).Idx → EReal)
    (B₂ : (⟨2, ![1, 10]⟩ : Shape).Idx → EReal) : (⟨2, ![M, 10]⟩ : Shape).Idx → EReal :=
  softmax (logits (hiddenLayer X W₁ B₁) W₂ B₂)

/-! ## Each row on its own -/

theorem hiddenLayer_congr {Mb M : ℕ} (xb : (⟨2, ![Mb, 784]⟩ : Shape).Idx → EReal) (X : (⟨2, ![M, 784]⟩ : Shape).Idx → EReal)
    (W : (⟨2, ![784, 100]⟩ : Shape).Idx → EReal) (B : (⟨2, ![1, 100]⟩ : Shape).Idx → EReal) (p : Fin Mb) (r : Fin M)
    (hx : ∀ k : Fin 784, xb (ix2 p k) = X (ix2 r k)) (j : Fin 100) :
    hiddenLayer xb W B (ix2 p j) = hiddenLayer X W B (ix2 r j) := by
  unfold hiddenLayer
  rw [affine_congr xb X W W B B (ix2 p j) (ix2 r j) hx (fun _ => rfl) rfl]

theorem logits_congr {Mb M : ℕ} (hb : (⟨2, ![Mb, 100]⟩ : Shape).Idx → EReal) (H : (⟨2, ![M, 100]⟩ : Shape).Idx → EReal)
    (W : (⟨2, ![100, 10]⟩ : Shape).Idx → EReal) (B : (⟨2, ![1, 10]⟩ : Shape).Idx → EReal) (p : Fin Mb) (r : Fin M)
    (hh : ∀ k : Fin 100, hb (ix2 p k) = H (ix2 r k)) (o : Fin 10) :
    logits hb W B (ix2 p o) = logits H W B (ix2 r o) :=
  affine_congr hb H W W B B (ix2 p o) (ix2 r o) hh (fun _ => rfl) rfl

theorem softmax_congr {Mb M : ℕ} (lb : (⟨2, ![Mb, 10]⟩ : Shape).Idx → EReal) (L : (⟨2, ![M, 10]⟩ : Shape).Idx → EReal)
    (p : Fin Mb) (r : Fin M) (hl : ∀ k : Fin 10, lb (ix2 p k) = L (ix2 r k)) (o : Fin 10) :
    softmax lb (ix2 p o) = softmax L (ix2 r o) := by
  have hm : rowMax lb p = rowMax L r := by
    unfold rowMax
    rw [show (fun k : Fin 10 => lb (ix2 p k)) = fun k => L (ix2 r k) from funext hl]
  show Ideal.div (Ideal.exp (lb (ix2 p o) - rowMax lb p)) (∑ k : Fin 10, Ideal.exp (lb (ix2 p k) - rowMax lb p))
    = Ideal.div (Ideal.exp (L (ix2 r o) - rowMax L r)) (∑ k : Fin 10, Ideal.exp (L (ix2 r k) - rowMax L r))
  rw [hm, hl o]
  exact congrArg _ (Finset.sum_congr rfl fun k _ => by rw [hl k])

theorem classify_congr {Mb M : ℕ} (xb : (⟨2, ![Mb, 784]⟩ : Shape).Idx → EReal) (X : (⟨2, ![M, 784]⟩ : Shape).Idx → EReal)
    (W₁ : (⟨2, ![784, 100]⟩ : Shape).Idx → EReal) (B₁ : (⟨2, ![1, 100]⟩ : Shape).Idx → EReal)
    (W₂ : (⟨2, ![100, 10]⟩ : Shape).Idx → EReal) (B₂ : (⟨2, ![1, 10]⟩ : Shape).Idx → EReal) (p : Fin Mb) (r : Fin M)
    (hx : ∀ k : Fin 784, xb (ix2 p k) = X (ix2 r k)) (o : Fin 10) :
    classify xb W₁ B₁ W₂ B₂ (ix2 p o) = classify X W₁ B₁ W₂ B₂ (ix2 r o) :=
  softmax_congr _ _ p r (fun k => logits_congr _ _ W₂ B₂ p r (fun j => hiddenLayer_congr xb X W₁ B₁ p r hx j) k) o

/-! ## The count -/

/-- `1` where an entry is above zero, else `0`: the comparison's bit read as a number. -/
def fires (a : EReal) : EReal :=
  (((FloatOps.cmpf (F := Ideal) (φ := .f32) .ogt a zeroW).toNat : ℝ) : EReal)

/-- A one-bit word widened to 32 bits and read signed is the bit read unsigned. -/
theorem toInt_setWidth_bit (b : BitVec 1) : (((b.setWidth 32).toInt : ℝ) : EReal) = ((b.toNat : ℝ) : EReal) := by
  rcases BitVec.eq_zero_or_eq_one b with rfl | rfl <;> simp

/-- The row mask: the word of `0` at the last row of all, the word of `1` at every other row. -/
def keep (r : ℕ) : EReal := if r = 65535 then zeroW else oneW

/-- How often hidden unit `j` fires over the first 65535 rows, read off a function of the row's number. -/
def firstRows (g : ℕ → EReal) : EReal := ∑ r : Fin 65535, g r.val

/-- The masked contributions of the 32 tiles of 2048 rows, summed tile by tile, are the contributions of the first
    65535 rows: the mask removes row 65535, the last of the last tile. -/
theorem tiles_sum (g : ℕ → EReal) :
    ∑ s ∈ Finset.range 32, ∑ p : Fin 2048, g (2048 * s + p.val) * keep (2048 * s + p.val) = firstRows g := by
  rw [← Cert.LibBlockSum.sum_fin_mul (fun k => g k * keep k) 32 2048]
  show ∑ k : Fin (65535 + 1), g k.val * keep k.val = _
  rw [Fin.sum_univ_castSucc]
  have hlast : g (Fin.last 65535).val * keep (Fin.last 65535).val = 0 := by
    show g 65535 * keep 65535 = 0
    rw [show keep 65535 = zeroW from if_pos rfl, zeroW_eq, mul_zero]
  rw [hlast, add_zero]
  refine Finset.sum_congr rfl fun r _ => ?_
  show g r.val * keep r.val = g r.val
  rw [show keep r.val = oneW from if_neg (by have := r.isLt; omega), oneW_eq, mul_one]

/-- The counter after tile `n`: the tiles' sums added to it one after the other. -/
def tally (freq : EReal) (part : ℕ → EReal) : ℕ → EReal
  | 0 => freq + part 0
  | n + 1 => tally freq part n + part (n + 1)

theorem tally_eq (freq : EReal) (part : ℕ → EReal) (n : ℕ) :
    tally freq part n = freq + ∑ s ∈ Finset.range (n + 1), part s := by
  induction n with
  | zero => simp [tally]
  | succ n ih => rw [tally, ih, Finset.sum_range_succ _ (n + 1), add_assoc]

/-- After the last of the 32 tiles the counter has advanced by the count over the first 65535 rows. -/
theorem tally_last (freq : EReal) (g : ℕ → EReal) :
    tally freq (fun s => ∑ p : Fin 2048, g (2048 * s + p.val) * keep (2048 * s + p.val)) 31 = freq + firstRows g := by
  rw [tally_eq, tiles_sum]

/-- Whether hidden unit `j` fires at row number `r` of a hidden layer of `M` rows (`0` past the last row). -/
def rowFires {M : ℕ} (H : (⟨2, ![M, 100]⟩ : Shape).Idx → EReal) (j : Fin 100) (r : ℕ) : EReal :=
  if h : r < M then fires (H (ix2 ⟨r, h⟩ j)) else 0

/-- The counters advanced: each hidden unit's counter plus the number of rows, among the first 65535, at which it fires. -/
def newFreq (freq : (⟨1, ![100]⟩ : Shape).Idx → EReal) (H : (⟨2, ![65536, 100]⟩ : Shape).Idx → EReal) :
    (⟨1, ![100]⟩ : Shape).Idx → EReal :=
  fun i => freq i + firstRows (rowFires H (i 0))

end Cert.Classifier

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelBody.lean ====
/-
  The kernel body's arithmetic at the extended reals, read entry by entry as the layers and the count of Classifier.lean.

  On a block of 2048 rows the body forms the hidden block (a block product into a zero accumulator, the two operands
  passed through a change of float format that is the identity here, plus the bias row repeated down the block, rectified
  by a maximum with 0): `hiddenLayer`. From it the logits block in the same affine form, the row maxima by a lane reduction
  from `-∞` joined once more with `-∞`, kept as a column and spread back over the ten lanes, the exponentials, their lane
  sums spread back likewise, and the quotient: `softmax` of `logits`. Beside it, per hidden unit, the tile's count: the
  bit "above zero" widened and converted (0 or 1), times a mask column that is 0 exactly where the row's number
  `2048 · t + p` is 65535, summed down the block's 2048 rows.
-/
import proofs.«170248_j59803124630057_1_alg».proof.Proof.Gen.KernelIdeal.Skeleton
import proofs.«170248_j59803124630057_1_alg».proof.Proof.Classifier
import proofs.«170248_j59803124630057_1_alg».proof.Proof.LibKeepdims
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.Lib.Dense Cert.Classifier Cert.LibKeepdims

/-! ## The two affine layers on a block -/

/-- The hidden block. -/
theorem hidden_block (x0 : FVec Ideal S2048x784 .f32) (x1 : FVec Ideal S784x100 .f32) (x2 : FVec Ideal S1x100 .f32) :
    k0_pay2 (F := Ideal) x0 x1 x2 = hiddenLayer x0 x1 x2 := by
  funext y
  unfold k0_pay2 hiddenLayer
  show max ((addf (matmul (DotDims.plain 2048 784 100) none (shapeCast S2048x784 x0 shapeCasts_S2048x784_S2048x784) x1
      (constant S2048x100 .f32 0x00000000#32)) (broadcastTo S2048x100 (shapeCast S1x100 x2 shapeCasts_S1x100_S1x100) broadcasts_S1x100_S2048x100)
      : FVec Ideal S2048x100 .f32) y) zeroW
    = max (affine x0 x1 x2 y) zeroW
  rw [pay_affine]

/-- The logits block, before the softmax. -/
theorem logits_block (h : FVec Ideal S2048x100 .f32) (x4 : FVec Ideal S100x10 .f32) (x5 : FVec Ideal S1x10 .f32) :
    (addf (matmul (DotDims.plain 2048 100 10) none h x4 (constant S2048x10 .f32 0x00000000#32))
      (broadcastTo S2048x10 (shapeCast S1x10 x5 shapeCasts_S1x10_S1x10) broadcasts_S1x10_S2048x10) : FVec Ideal S2048x10 .f32)
      = logits h x4 x5 := by
  funext z
  show FloatOps.matmul (DotDims.plain 2048 100 10) none h x4 (constant _ .f32 0x00000000#32) z
    + broadcastTo S2048x10 (shapeCast S1x10 x5 shapeCasts_S1x10_S1x10) broadcasts_S1x10_S2048x10 z = affine h x4 x5 z
  rw [plain_matmul_apply, shapeCast_self, broadcastTo_apply x5 broadcasts_S1x10_S2048x10 z (ix2 0 (z 1))]
  · rfl
  · intro a
    match a with
    | ⟨0, _⟩ => simp
    | ⟨1, _⟩ => show (z 1).val = if (10 : ℕ) = 1 then 0 else (z 1).val; rw [if_neg (by decide)]

/-! ## The softmax of a block of logits -/

/-- Inserting lane `k` on axis 1 of the row index `p` gives `(p, k)`. -/
theorem lift_lane (h : S2048x10.Reduces [1] S2048) (p : Fin 2048) (k : Fin 10) : h.lift (ix1 p) k = ix2 p k := by
  funext a; apply Fin.ext
  match a with
  | ⟨0, _⟩ => rfl
  | ⟨1, _⟩ => rfl

/-- Inserting row `p` on axis 0 of the unit index `j` gives `(p, j)`. -/
theorem lift_rowOf (h : S2048x100.Reduces [0] S100) (j : Fin 100) (p : Fin 2048) : h.lift (ix1 j) p = ix2 p j := by
  funext a; apply Fin.ext
  match a with
  | ⟨0, _⟩ => rfl
  | ⟨1, _⟩ => rfl

/-- A block of logits, reduced along its lanes to the row maxima and the row sums of exponentials, each kept as a column and
    spread back over the lanes, is the softmax of its rows. -/
theorem softmax_block (L : FVec Ideal S2048x10 .f32) (hr : S2048x10.Reduces [1] S2048) (hc : S2048.ShapeCasts S2048x1)
    (hb : S2048x1.Broadcasts S2048x10) (hφ : FKind.Formats .f32)
    (ha1 : (0xFF800000#32 : BitVec 32) = FKind.maximumf.neutral .f32 hφ) (ha2 : (0x00000000#32 : BitVec 32) = FKind.add.neutral .f32 hφ) :
    divf (exp (subf L (broadcastTo S2048x10 (shapeCast S2048x1 (maximumf (broadcast S2048 (Scalar.ofBits .f32 0xFF800000#32))
        (multiReduction .maximumf [1] S2048 L 0xFF800000#32 hr hφ ha1)) hc) hb)))
      (broadcastTo S2048x10 (shapeCast S2048x1 (multiReduction .add [1] S2048
        (exp (subf L (broadcastTo S2048x10 (shapeCast S2048x1 (maximumf (broadcast S2048 (Scalar.ofBits .f32 0xFF800000#32))
          (multiReduction .maximumf [1] S2048 L 0xFF800000#32 hr hφ ha1)) hc) hb))) 0x00000000#32 hr hφ ha2) hc) hb)
      = softmax L := by
  funext y
  obtain ⟨p, o, rfl⟩ : ∃ (p : Fin 2048) (o : Fin 10), y = ix2 p o := ⟨y 0, y 1, eq_ix2 y⟩
  have hmx : ∀ k : Fin 10, (broadcastTo S2048x10 (shapeCast S2048x1 (maximumf (broadcast S2048 (Scalar.ofBits (F := Ideal) .f32 0xFF800000#32))
      (multiReduction .maximumf [1] S2048 L 0xFF800000#32 hr hφ ha1)) hc) hb) (ix2 p k) = rowMax L p := by
    intro k
    rw [broadcastTo_a1_ab_apply, shapeCast_a_a1_apply]
    show max negInfW (multiReduction .maximumf [1] S2048 L 0xFF800000#32 hr hφ ha1 (ix1 p)) = _
    rw [Ideal.multiReduction_maximumf_single]
    rw [show (L ∘ hr.lift (ix1 p)) = fun k => L (ix2 p k) from funext fun k => congrArg L (lift_lane hr p k)]
    rfl
  generalize (broadcastTo S2048x10 (shapeCast S2048x1 (maximumf (broadcast S2048 (Scalar.ofBits (F := Ideal) .f32 0xFF800000#32))
      (multiReduction .maximumf [1] S2048 L 0xFF800000#32 hr hφ ha1)) hc) hb) = mx at hmx ⊢
  show Ideal.div (Ideal.exp (L (ix2 p o) - mx (ix2 p o)))
      (broadcastTo S2048x10 (shapeCast S2048x1 (multiReduction .add [1] S2048 (exp (subf L mx)) 0x00000000#32 hr hφ ha2) hc) hb (ix2 p o))
    = Ideal.div (Ideal.exp (L (ix2 p o) - rowMax L p)) (∑ k : Fin 10, Ideal.exp (L (ix2 p k) - rowMax L p))
  rw [hmx o, broadcastTo_a1_ab_apply, shapeCast_a_a1_apply, Ideal.multiReduction_add_single]
  refine congrArg _ (Finset.sum_congr rfl fun k _ => ?_)
  rw [show hr.lift (ix1 p) k = ix2 p k from lift_lane hr p k]
  show Ideal.exp (L (ix2 p k) - mx (ix2 p k)) = _
  rw [hmx k]

/-- The probabilities block is the softmax of the logits of the hidden block. -/
theorem probs_block (h : FVec Ideal S2048x100 .f32) (x4 : FVec Ideal S100x10 .f32) (x5 : FVec Ideal S1x10 .f32) :
    k0_pay1 (F := Ideal) h x4 x5 = softmax (logits h x4 x5) := by
  rw [← logits_block]
  unfold k0_pay1
  exact softmax_block _ reduces_S2048x10_S2048 shapeCasts_S2048_S2048x1 broadcasts_S2048x1_S2048x10 (.inl rfl) rfl rfl

/-! ## A tile's count -/

/-- The comparison "above zero", widened to 32 bits and converted as a signed integer, is 1 where the entry fires and 0 elsewhere. -/
theorem fires_vec (H : FVec Ideal S2048x100 .f32) (y : S2048x100.Idx) :
    (sitofp .f32 (extui 32 (cmpf .ogt H (broadcast S2048x100 (Scalar.ofBits .f32 0x00000000#32))) natLt_1_32) : FVec Ideal S2048x100 .f32) y
      = fires (H y) :=
  toInt_setWidth_bit _

/-- The row number `2048 · t + p` of row `p` of tile `t`, computed in 32-bit words, is compared with 65535 exactly. -/
theorem mask_word (t p : ℕ) (ht : t < 32) (hp : p < 2048) :
    Scalar.select (IntOp.cmpi .eq (IntOp.addi (BitVec.ofNat 32 p) (Scalar.muli (BitVec.ofNat 32 t) 2048#32)) 65535#32) zeroW oneW
      = keep (2048 * t + p) := by
  have e : IntOp.addi (BitVec.ofNat 32 p) (Scalar.muli (BitVec.ofNat 32 t) 2048#32) = BitVec.ofNat 32 (2048 * t + p) := by
    apply BitVec.eq_of_toNat_eq
    simp only [IntOp.addi, Scalar.muli, IntOp.muli, BitVec.toNat_add, BitVec.toNat_mul, BitVec.toNat_ofNat]
    omega
  rw [e]
  unfold keep
  by_cases h : 2048 * t + p = 65535
  · rw [if_pos h, h]; rfl
  · rw [if_neg h]
    have hne : BitVec.ofNat 32 (2048 * t + p) ≠ 65535#32 := by
      intro hh
      have := congrArg BitVec.toNat hh
      simp only [BitVec.toNat_ofNat] at this
      omega
    have hc : IntOp.cmpi .eq (BitVec.ofNat 32 (2048 * t + p)) 65535#32 = 0#1 := by
      unfold IntOp.cmpi
      rw [show (BitVec.ofNat 32 (2048 * t + p) == 65535#32) = false from beq_eq_false_iff_ne.mpr hne]
      rfl
    rw [hc]
    exact select_zero _ _

/-- The mask column spread over the hidden units reads, at row `p` of the tile at grid point `i`, the mask of the row's number. -/
theorem keep_vec (i : grid0.Coords) (p : Fin 2048) (j : Fin 100) :
    broadcastTo S2048x100 (select (cmpi .eq (addi (iota .tc S2048x1 32 [0] iota_S2048x1_d0_w32)
        (broadcast S2048x1 (Scalar.muli (BitVec.ofNat 32 (i 0).val) 2048#32))) (broadcast S2048x1 65535#32))
        (broadcast S2048x1 (Scalar.ofBits (F := Ideal) .f32 0x00000000#32)) (broadcast S2048x1 (Scalar.ofBits (F := Ideal) .f32 0x3F800000#32)))
      broadcasts_S2048x1_S2048x100 (ix2 p j) = keep (2048 * (i 0).val + p.val) := by
  rw [broadcastTo_a1_ab_apply]
  show Scalar.select (IntOp.cmpi .eq (IntOp.addi (iota .tc S2048x1 32 [0] iota_S2048x1_d0_w32 (ix2 p 0))
      (Scalar.muli (BitVec.ofNat 32 (i 0).val) 2048#32)) 65535#32) zeroW oneW = _
  rw [iota_single_apply]
  exact mask_word (i 0).val p.val (show (i 0).val < 32 from (i 0).isLt) p.isLt

/-- The tile's count for hidden unit `j`: the masked firings of the hidden block's 2048 rows, summed. -/
theorem tile_count (i : grid0.Coords) (x0 : Vec Ideal S2048x784 .f32) (x1 : Vec Ideal S784x100 .f32) (x2 : Vec Ideal S1x100 .f32) (j : Fin 100) :
    k0_pay3 (F := Ideal) i x0 x1 x2 (ix2 0 j)
      = ∑ p : Fin 2048, fires (k0_pay2 (F := Ideal) x0 x1 x2 (ix2 p j)) * keep (2048 * (i 0).val + p.val) := by
  unfold k0_pay3
  dsimp only
  rw [shapeCast_row]
  refine (Ideal.multiReduction_add_single _ _ reduces_S2048x100_S100 _ _ (ix1 j)).trans ?_
  refine Finset.sum_congr rfl fun p _ => ?_
  rw [show reduces_S2048x100_S100.lift (ix1 j) p = ix2 p j from lift_rowOf reduces_S2048x100_S100 j p]
  exact congrArg₂ (· * ·) (fires_vec _ _) (keep_vec i p j)

end Cert.KernelIdeal.Body

end
-- ==== Proof.KernelTiles.lean ====
/-
  The kernel's tiles against the whole arrays, at the extended reals.

  Tile `t` of the flattened input is its rows `2048 · t` to `2048 · t + 2047`; the weights, the two bias rows and the counter
  row are staged whole at every point. So the hidden block of tile `t` is the whole hidden layer at the tile's rows, the
  tile's count for a hidden unit is the masked firings of those rows, and the carried counts after point `n` are the
  counter plus the counts of tiles `0` to `n`, added one after the other: by induction on the point.
-/
import proofs.«170248_j59803124630057_1_alg».proof.Proof.KernelPoints
import proofs.«170248_j59803124630057_1_alg».proof.Proof.KernelBody
import Idealize.ShloMosaic.Lib.Pipeline.Value

set_option maxRecDepth 16384

noncomputable section

open scoped BigOperators

open Idealize.ShloMosaic Idealize.ShloMosaic.TcCoe Idealize.SL.Sem
open Idealize.ShloMosaic.Pipeline (Dat)

namespace Cert.KernelIdeal.Tiles

open Cert.KernelIdeal Cert.KernelIdeal.Gen
open Idealize.ShloMosaic.ValueIdx Cert.Lib.Dense Cert.Classifier

variable (m : (ℓ : Loc nD τ sig) → Buf (Elt Ideal) ℓ)

/-! ## The arrays the region finds, and the blocks of a point, by their literal types -/

/-- The flattened input, the two weight matrices, the two bias rows and the counter row, as the region finds them. -/
abbrev X (c : Dev nD) : FVec Ideal S65536x784 .f32 := V m c main_v0
abbrev W₁ (c : Dev nD) : FVec Ideal S784x100 .f32 := V m c main_arg1
abbrev B₁ (c : Dev nD) : FVec Ideal S1x100 .f32 := V m c main_v1
abbrev Fq (c : Dev nD) : FVec Ideal S1x100 .f32 := V m c main_v2
abbrev W₂ (c : Dev nD) : FVec Ideal S100x10 .f32 := V m c main_arg4
abbrev B₂ (c : Dev nD) : FVec Ideal S1x10 .f32 := V m c main_v3

/-- The input's tile at a point. -/
abbrev xblk (c : Dev nD) (t : Fin cfg0.N) : FVec Ideal S2048x784 .f32 := iblk m c 0 t

theorem N_eq : cfg0.N = 32 := N_0

/-- The grid's one coordinate at point `t` is `t`. -/
theorem coords_val (t : Fin cfg0.N) : (grid0.coords t 0).val = t.val :=
  (by decide +kernel : ∀ t : Fin grid0.N, (grid0.coords t 0).val = t.val) t

/-- Row `p` of tile `t` is row `2048 · t + p` of the flattened input. -/
theorem xblk_apply (c : Dev nD) (t : Fin cfg0.N) (p : Fin 2048) (k : Fin 784) (hr : 2048 * t.val + p.val < 65536) :
    xblk m c t (ix2 p k) = X m c (ix2 ⟨2048 * t.val + p.val, hr⟩ k) := by
  have hi : win0_0.index t 0 = t.val ∧ win0_0.index t 1 = 0 :=
    (by decide +kernel : ∀ t : Fin grid0.N, win0_0.index t 0 = t.val ∧ win0_0.index t 1 = 0) t
  unfold xblk iblk
  rw [View.read_apply]
  show V m c main_v0 _ = V m c main_v0 _
  congr 1
  funext a; apply Fin.ext
  match a with
  | ⟨0, _⟩ => show win0_0.index t 0 * 2048 + 1 * p.val = 2048 * t.val + p.val; rw [hi.1]; omega
  | ⟨1, _⟩ => show win0_0.index t 1 * 784 + 1 * k.val = k.val; rw [hi.2]; omega

/-- Window 1's block is its whole array at every point: its block index never moves from the origin. -/
theorem blk_w1 (c : Dev nD) (t : Fin cfg0.N) : (iblk m c 1 t : FVec Ideal S784x100 .f32) = W₁ m c := by
  have hi : win0_1.index t 0 = 0 ∧ win0_1.index t 1 = 0 :=
    (by decide +kernel : ∀ t : Fin grid0.N, win0_1.index t 0 = 0 ∧ win0_1.index t 1 = 0) t
  funext y
  unfold iblk
  rw [View.read_apply]
  show V m c main_arg1 _ = V m c main_arg1 y
  congr 1
  funext a; apply Fin.ext
  match a with
  | ⟨0, _⟩ => show win0_1.index t 0 * 784 + 1 * (y 0).val = (y 0).val; rw [hi.1]; omega
  | ⟨1, _⟩ => show win0_1.index t 1 * 100 + 1 * (y 1).val = (y 1).val; rw [hi.2]; omega

/-- Window 2's block is its whole array at every point: its block index never moves from the origin. -/
theorem blk_b1 (c : Dev nD) (t : Fin cfg0.N) : (iblk m c 2 t : FVec Ideal S1x100 .f32) = B₁ m c := by
  have hi : win0_2.index t 0 = 0 ∧ win0_2.index t 1 = 0 :=
    (by decide +kernel : ∀ t : Fin grid0.N, win0_2.index t 0 = 0 ∧ win0_2.index t 1 = 0) t
  funext y
  unfold iblk
  rw [View.read_apply]
  show V m c main_v1 _ = V m c main_v1 y
  congr 1
  funext a; apply Fin.ext
  match a with
  | ⟨0, _⟩ => show win0_2.index t 0 * 1 + 1 * (y 0).val = (y 0).val; rw [hi.1]; omega
  | ⟨1, _⟩ => show win0_2.index t 1 * 100 + 1 * (y 1).val = (y 1).val; rw [hi.2]; omega

/-- Window 3's block is its whole array at every point: its block index never moves from the origin. -/
theorem blk_fq (c : Dev nD) (t : Fin cfg0.N) : (iblk m c 3 t : FVec Ideal S1x100 .f32) = Fq m c := by
  have hi : win0_3.index t 0 = 0 ∧ win0_3.index t 1 = 0 :=
    (by decide +kernel : ∀ t : Fin grid0.N, win0_3.index t 0 = 0 ∧ win0_3.index t 1 = 0) t
  funext y
  unfold iblk
  rw [View.read_apply]
  show V m c main_v2 _ = V m c main_v2 y
  congr 1
  funext a; apply Fin.ext
  match a with
  | ⟨0, _⟩ => show win0_3.index t 0 * 1 + 1 * (y 0).val = (y 0).val; rw [hi.1]; omega
  | ⟨1, _⟩ => show win0_3.index t 1 * 100 + 1 * (y 1).val = (y 1).val; rw [hi.2]; omega

/-- Window 4's block is its whole array at every point: its block index never moves from the origin. -/
theorem blk_w2 (c : Dev nD) (t : Fin cfg0.N) : (iblk m c 4 t : FVec Ideal S100x10 .f32) = W₂ m c := by
  have hi : win0_4.index t 0 = 0 ∧ win0_4.index t 1 = 0 :=
    (by decide +kernel : ∀ t : Fin grid0.N, win0_4.index t 0 = 0 ∧ win0_4.index t 1 = 0) t
  funext y
  unfold iblk
  rw [View.read_apply]
  show V m c main_arg4 _ = V m c main_arg4 y
  congr 1
  funext a; apply Fin.ext
  match a with
  | ⟨0, _⟩ => show win0_4.index t 0 * 100 + 1 * (y 0).val = (y 0).val; rw [hi.1]; omega
  | ⟨1, _⟩ => show win0_4.index t 1 * 10 + 1 * (y 1).val = (y 1).val; rw [hi.2]; omega

/-- Window 5's block is its whole array at every point: its block index never moves from the origin. -/
theorem blk_b2 (c : Dev nD) (t : Fin cfg0.N) : (iblk m c 5 t : FVec Ideal S1x10 .f32) = B₂ m c := by
  have hi : win0_5.index t 0 = 0 ∧ win0_5.index t 1 = 0 :=
    (by decide +kernel : ∀ t : Fin grid0.N, win0_5.index t 0 = 0 ∧ win0_5.index t 1 = 0) t
  funext y
  unfold iblk
  rw [View.read_apply]
  show V m c main_v3 _ = V m c main_v3 y
  congr 1
  funext a; apply Fin.ext
  match a with
  | ⟨0, _⟩ => show win0_5.index t 0 * 1 + 1 * (y 0).val = (y 0).val; rw [hi.1]; omega
  | ⟨1, _⟩ => show win0_5.index t 1 * 10 + 1 * (y 1).val = (y 1).val; rw [hi.2]; omega

/-! ## The hidden layer and a tile's count -/

/-- The whole hidden layer. -/
abbrev H (c : Dev nD) : (⟨2, ![65536, 100]⟩ : Shape).Idx → EReal := hiddenLayer (X m c) (W₁ m c) (B₁ m c)

/-- The hidden block of tile `t` is the hidden layer at the tile's rows. -/
theorem hidden_tile (c : Dev nD) (t : Fin cfg0.N) (p : Fin 2048) (j : Fin 100) (hr : 2048 * t.val + p.val < 65536) :
    k0_pay2 (F := Ideal) (xblk m c t) (W₁ m c) (B₁ m c) (ix2 p j) = H m c (ix2 ⟨2048 * t.val + p.val, hr⟩ j) := by
  rw [Body.hidden_block]
  exact hiddenLayer_congr (xblk m c t) (X m c) (W₁ m c) (B₁ m c) p ⟨_, hr⟩ (fun k => xblk_apply m c t p k hr) j

/-- The masked firings of tile `s`'s rows for hidden unit `j`, summed. -/
def tilePart (c : Dev nD) (j : Fin 100) (s : ℕ) : EReal :=
  ∑ p : Fin 2048, rowFires (H m c) j (2048 * s + p.val) * keep (2048 * s + p.val)

/-- The body's tile count at point `t` is the count of tile `t`. -/
theorem tile_part (c : Dev nD) (t : Fin cfg0.N) (j : Fin 100) :
    k0_pay3 (F := Ideal) (grid0.coords t) (xblk m c t) (W₁ m c) (B₁ m c) (ix2 0 j) = tilePart m c j t.val := by
  have hN : t.val < 32 := lt_of_lt_of_eq t.isLt N_eq
  refine (Body.tile_count (grid0.coords t) (xblk m c t) (W₁ m c) (B₁ m c) j).trans ?_
  rw [coords_val t]
  refine Finset.sum_congr rfl fun p _ => ?_
  have hr : 2048 * t.val + p.val < 65536 := by have := p.isLt; omega
  refine congrArg (· * keep (2048 * t.val + p.val)) ?_
  unfold rowFires
  rw [dif_pos hr]
  exact congrArg fires (hidden_tile m c t p j hr)

/-- The first point's store: the counter row plus the tile's count. -/
theorem first_apply (i : grid0.Coords) (x0 : FVec Ideal S2048x784 .f32) (x1 : FVec Ideal S784x100 .f32) (x2 x3 : FVec Ideal S1x100 .f32) (j : Fin 100) :
    k0_pay4 (F := Ideal) i x0 x1 x2 x3 (ix2 0 j) = x3 (ix2 0 j) + k0_pay3 (F := Ideal) i x0 x1 x2 (ix2 0 j) := by
  unfold k0_pay4
  rw [Idealize.ShloMosaic.shapeCast_self, Idealize.ShloMosaic.shapeCast_self]
  rfl

/-- A later point's store: the carried counts plus the tile's count. -/
theorem next_apply (i : grid0.Coords) (x0 : FVec Ideal S2048x784 .f32) (x1 : FVec Ideal S784x100 .f32) (x2 xs : FVec Ideal S1x100 .f32) (j : Fin 100) :
    k0_pay5 (F := Ideal) i x0 x1 x2 xs (ix2 0 j) = xs (ix2 0 j) + k0_pay3 (F := Ideal) i x0 x1 x2 (ix2 0 j) := by
  unfold k0_pay5
  rw [Idealize.ShloMosaic.shapeCast_self]
  rfl

/-! ## The carried counts after each point -/

/-- What the point before `t` left in the carried counts, by its literal type. -/
abbrev carried (c : Dev nD) (n : ℕ) (hn : n < cfg0.N) : FVec Ideal S1x100 .f32 := (outsAt0 m c n hn).2.2

/-- After point `n` the carried counts are the counter plus the counts of tiles `0` to `n`, added in that order. -/
theorem carried_eq (c : Dev nD) (j : Fin 100) : ∀ (n : ℕ) (hn : n < cfg0.N),
    carried m c n hn (ix2 0 j) = tally (Fq m c (ix2 0 j)) (tilePart m c j) n
  | 0, hn => by
    have e := Points.counts_first m c ⟨0, hn⟩ rfl
    have e' : carried m c 0 hn = k0_pay4 (F := Ideal) (grid0.coords ⟨0, hn⟩) (xblk m c ⟨0, hn⟩) (W₁ m c) (B₁ m c) (Fq m c) := by
      rw [← blk_w1 m c ⟨0, hn⟩, ← blk_b1 m c ⟨0, hn⟩, ← blk_fq m c ⟨0, hn⟩]; exact e
    rw [e', first_apply, tile_part]
    rfl
  | n + 1, hn => by
    have e := Points.counts_next m c ⟨n + 1, hn⟩ (Nat.succ_le_succ (Nat.zero_le n))
    have e' : carried m c (n + 1) hn
        = k0_pay5 (F := Ideal) (grid0.coords ⟨n + 1, hn⟩) (xblk m c ⟨n + 1, hn⟩) (W₁ m c) (B₁ m c) (carried m c n (Nat.lt_of_succ_lt hn)) := by
      rw [← blk_w1 m c ⟨n + 1, hn⟩, ← blk_b1 m c ⟨n + 1, hn⟩]; exact e
    rw [e', next_apply, tile_part, carried_eq c j n (Nat.lt_of_succ_lt hn)]
    rfl

end Cert.KernelIdeal.Tiles

end
-- ==== Proof.KernelRun.lean ====
/-
  The kernel's run, read: what its two result arrays hold after every weakly fair execution.

  Every grid point writes its probabilities block back, and block `t` is the classifier at rows `2048 · t` to
  `2048 · t + 2047`, so the 32 blocks tile the result and it ends at the classifier of the whole flattened input. The
  count row is written back once, after the last point, when the carried counts have gone through all 32 tiles: the
  counter plus the firings over the first 65535 rows. The host operation after the call drops the row's unit axis.
  The arrays the call is given are the arguments reshaped: the input flattened, the bias and counter vectors made rows.
-/
import proofs.«170248_j59803124630057_1_alg».proof.Proof.KernelTiles
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Tiles
open Idealize.ShloMosaic.ValueIdx Cert.Lib.Dense Cert.Classifier

variable (m : (ℓ : Loc nD τ sig) → Buf (Elt Ideal) ℓ) (ρ : Dev nD → PrngReg)

/-- The class probabilities of all 65536 rows. -/
abbrev probs (c : Dev nD) : FVec Ideal S65536x10 .f32 := classify (X m c) (W₁ m c) (B₁ m c) (W₂ m c) (B₂ m c)

/-- The advanced counters, as a row. -/
abbrev counts (c : Dev nD) : FVec Ideal S1x100 .f32 := fun i => Fq m c (ix2 0 (i 1)) + firstRows (rowFires (H m c) (i 1))

/-! ## The probabilities -/

theorem idx_probs (t : Fin cfg0.N) : win0_6.index t 0 = t.val ∧ win0_6.index t 1 = 0 :=
  (by decide +kernel : ∀ t : Fin grid0.N, win0_6.index t 0 = t.val ∧ win0_6.index t 1 = 0) t

/-- The probabilities block of tile `t` is the classifier of the tile. -/
theorem probs_tile (c : Dev nD) (t : Fin cfg0.N) :
    (k0_pay1 (F := Ideal) (k0_pay2 (iblk m c 0 t) (iblk m c 1 t) (iblk m c 2 t)) (iblk m c 4 t) (iblk m c 5 t) : FVec Ideal S2048x10 .f32)
      = classify (xblk m c t) (W₁ m c) (B₁ m c) (W₂ m c) (B₂ m c) := by
  have e : (k0_pay1 (F := Ideal) (k0_pay2 (iblk m c 0 t) (iblk m c 1 t) (iblk m c 2 t)) (iblk m c 4 t) (iblk m c 5 t) : FVec Ideal S2048x10 .f32)
      = k0_pay1 (F := Ideal) (k0_pay2 (xblk m c t) (W₁ m c) (B₁ m c)) (W₂ m c) (B₂ m c) := by
    rw [← blk_w1 m c t, ← blk_b1 m c t, ← blk_w2 m c t, ← blk_b2 m c t]
  rw [e, Body.hidden_block, Body.probs_block]
  rfl

/-- What point `t` writes back is block `t` of the probabilities. -/
theorem flushed_probs (c : Dev nD) (t : Fin cfg0.N) :
    (dats m 0 c).flushed 6 t = ((cfg0.win 6).blk t).view.read (Elt Ideal) (probs m c) := by
  have hN : t.val < 32 := lt_of_lt_of_eq t.isLt N_eq
  obtain ⟨i0, i1⟩ := idx_probs t
  show (cfg0.win 6).cut (grid0.coords t) ((dats m 0 c).after 6 t) = _
  rw [after0_6, Points.probs_at m c t, probs_tile]
  funext y
  obtain ⟨p, o, rfl⟩ : ∃ (p : Fin 2048) (o : Fin 10), y = ix2 p o := ⟨y 0, y 1, eq_ix2 y⟩
  have hr : 2048 * t.val + p.val < 65536 := by have := p.isLt; omega
  rw [View.read_apply]
  show classify (xblk m c t) (W₁ m c) (B₁ m c) (W₂ m c) (B₂ m c) (ix2 p o) = probs m c (((cfg0.win 6).blk t).view.emb (ix2 p o))
  have hemb : ((cfg0.win 6).blk t).view.emb (ix2 p o) = ix2 (⟨2048 * t.val + p.val, hr⟩ : Fin 65536) o := by
    funext a; apply Fin.ext
    match a with
    | ⟨0, _⟩ => show win0_6.index t 0 * 2048 + 1 * p.val = 2048 * t.val + p.val; rw [i0]; omega
    | ⟨1, _⟩ => show win0_6.index t 1 * 10 + 1 * o.val = o.val; rw [i1]; omega
  rw [hemb]
  exact classify_congr (xblk m c t) (X m c) (W₁ m c) (B₁ m c) (W₂ m c) (B₂ m c) p ⟨_, hr⟩ (fun k => xblk_apply m c t p k hr) o

/-- An index of the probabilities is in point `t`'s block iff each coordinate is in the block's range on its axis. -/
theorem mem_blk_probs (t : Fin cfg0.N) (i : S65536x10.Idx) :
    i ∈ ((cfg0.win 6).blk t).view.set ↔ ∀ a : Fin 2, win0_6.index t a * S2048x10.size a ≤ (i a).val ∧ (i a).val < win0_6.index t a * S2048x10.size a + S2048x10.size a := by
  show i ∈ ((View.whole main_v4_0).slice (win0_6.rect t)).set ↔ _
  rw [View.set_slice_whole, Rect.mem_set_unit]
  exact Iff.rfl

/-- Row `r` lies in the block of point `r / 2048`. -/
theorem cover_probs (i : S65536x10.Idx) : ∃ t : Fin cfg0.N, (cfg0.win 6).flush t = true ∧ i ∈ ((cfg0.win 6).blk t).view.set := by
  have h0 : (i 0).val < 65536 := (i 0).isLt
  have h1 : (i 1).val < 10 := (i 1).isLt
  have ht : (i 0).val / 2048 < cfg0.N := by rw [N_eq]; omega
  obtain ⟨i0, i1⟩ := idx_probs ⟨(i 0).val / 2048, ht⟩
  refine ⟨⟨(i 0).val / 2048, ht⟩, flush0_6 _, ?_⟩
  rw [mem_blk_probs]
  intro a
  match a with
  | ⟨0, _⟩ =>
    show win0_6.index ⟨(i 0).val / 2048, ht⟩ 0 * 2048 ≤ (i 0).val ∧ (i 0).val < win0_6.index ⟨(i 0).val / 2048, ht⟩ 0 * 2048 + 2048
    rw [i0]; show (i 0).val / 2048 * 2048 ≤ (i 0).val ∧ (i 0).val < (i 0).val / 2048 * 2048 + 2048; omega
  | ⟨1, _⟩ =>
    show win0_6.index ⟨(i 0).val / 2048, ht⟩ 1 * 10 ≤ (i 1).val ∧ (i 1).val < win0_6.index ⟨(i 0).val / 2048, ht⟩ 1 * 10 + 10
    rw [i1]; omega

/-- The first result array ends at the probabilities. -/
theorem final_probs (c : Dev nD) : (dats m 0 c).arrAt 6 cfg0.N = probs m c :=
  (dats m 0 c).arrAt_eq_of_cover 6 (probs m c) (fun t _ => flushed_probs m c t) cover_probs

/-! ## The counters -/

theorem idx_counts (t : Fin cfg0.N) : win0_7.index t 0 = 0 ∧ win0_7.index t 1 = 0 :=
  (by decide +kernel : ∀ t : Fin grid0.N, win0_7.index t 0 = 0 ∧ win0_7.index t 1 = 0) t

/-- The one write-back of the count row, after the last point, writes the advanced counters. -/
theorem flushed_counts (c : Dev nD) (t : Fin cfg0.N) (hf : (cfg0.win 7).flush t = true) :
    (dats m 0 c).flushed 7 t = ((cfg0.win 7).blk t).view.read (Elt Ideal) (counts m c) := by
  have hN : t.val < 32 := lt_of_lt_of_eq t.isLt N_eq
  have hl : t.val = 31 := by have := (flush0_7 t).mp hf; omega
  obtain ⟨i0, i1⟩ := idx_counts t
  show (cfg0.win 7).cut (grid0.coords t) ((dats m 0 c).after 7 t) = _
  rw [after0_7, Points.freq_last m c t hl, ← Points.counts_next m c t (by omega)]
  funext y
  obtain ⟨u, j, rfl⟩ : ∃ (u : Fin 1) (j : Fin 100), y = ix2 u j := ⟨y 0, y 1, eq_ix2 y⟩
  obtain rfl : u = 0 := Subsingleton.elim _ _
  rw [View.read_apply]
  show carried m c t.val t.isLt (ix2 0 j) = counts m c (((cfg0.win 7).blk t).view.emb (ix2 0 j))
  have hemb : ((cfg0.win 7).blk t).view.emb (ix2 (0 : Fin 1) j) = ix2 (0 : Fin 1) j := by
    funext a; apply Fin.ext
    match a with
    | ⟨0, _⟩ => show win0_7.index t 0 * 1 + 1 * 0 = 0; rw [i0]
    | ⟨1, _⟩ => show win0_7.index t 1 * 100 + 1 * j.val = j.val; rw [i1]; omega
  rw [hemb, carried_eq m c j t.val t.isLt, hl]
  exact tally_last (Fq m c (ix2 0 j)) (rowFires (H m c) j)

/-- The last point's block is the whole count row. -/
theorem cover_counts (i : S1x100.Idx) : ∃ t : Fin cfg0.N, (cfg0.win 7).flush t = true ∧ i ∈ ((cfg0.win 7).blk t).view.set := by
  have h0 : (i 0).val < 1 := (i 0).isLt
  have h1 : (i 1).val < 100 := (i 1).isLt
  have ht : 31 < cfg0.N := by rw [N_eq]; omega
  obtain ⟨i0, i1⟩ := idx_counts ⟨31, ht⟩
  refine ⟨⟨31, ht⟩, (flush0_7 _).mpr rfl, ?_⟩
  show i ∈ ((View.whole main_v4_1).slice (win0_7.rect ⟨31, ht⟩)).set
  rw [View.set_slice_whole, Rect.mem_set_unit]
  intro a
  match a with
  | ⟨0, _⟩ =>
    show win0_7.index ⟨31, ht⟩ 0 * 1 ≤ (i 0).val ∧ (i 0).val < win0_7.index ⟨31, ht⟩ 0 * 1 + 1
    rw [i0]; omega
  | ⟨1, _⟩ =>
    show win0_7.index ⟨31, ht⟩ 1 * 100 ≤ (i 1).val ∧ (i 1).val < win0_7.index ⟨31, ht⟩ 1 * 100 + 100
    rw [i1]; omega

/-- The second result of the call ends at the advanced counters. -/
theorem final_counts (c : Dev nD) : (dats m 0 c).arrAt 7 cfg0.N = counts m c :=
  (dats m 0 c).arrAt_eq_of_cover 7 (counts m c) (flushed_counts m c) cover_counts

/-! ## The arrays the call is given -/

theorem X_eq (c : Dev nD) : X m c = shapeCast S65536x784 (m ((c : Thread nD τ).loc main_arg0)) shapeCasts_S65536x28x28_S65536x784 := by
  show StableHlo.after hostOps0 (fun b => m (c, b)) (Proc.devRef .tc main_v0) = _
  after_results
  rfl

theorem B₁_eq (c : Dev nD) : B₁ m c = biasRow (m ((c : Thread nD τ).loc main_arg2)) := by
  rw [← shapeCast_row (m ((c : Thread nD τ).loc main_arg2)) shapeCasts_S100_S1x100]
  show StableHlo.after hostOps0 (fun b => m (c, b)) (Proc.devRef .tc main_v1) = _
  after_results
  rfl

theorem Fq_eq (c : Dev nD) : Fq m c = biasRow (m ((c : Thread nD τ).loc main_arg3)) := by
  rw [← shapeCast_row (m ((c : Thread nD τ).loc main_arg3)) shapeCasts_S100_S1x100]
  show StableHlo.after hostOps0 (fun b => m (c, b)) (Proc.devRef .tc main_v2) = _
  after_results
  rfl

theorem B₂_eq (c : Dev nD) : B₂ m c = biasRow (m ((c : Thread nD τ).loc main_arg5)) := by
  rw [← shapeCast_row (m ((c : Thread nD τ).loc main_arg5)) shapeCasts_S10_S1x10]
  show StableHlo.after hostOps0 (fun b => m (c, b)) (Proc.devRef .tc main_v3) = _
  after_results
  rfl

theorem W₁_eq (c : Dev nD) : W₁ m c = m ((c : Thread nD τ).loc main_arg1) := V_main_arg1 m c
theorem W₂_eq (c : Dev nD) : W₂ m c = m ((c : Thread nD τ).loc main_arg4) := V_main_arg4 m c

/-! ## The run -/

/-- The flattened input, from the argument. -/
abbrev flat (c : Dev nD) : FVec Ideal S65536x784 .f32 :=
  shapeCast S65536x784 (m ((c : Thread nD τ).loc main_arg0)) shapeCasts_S65536x28x28_S65536x784

/-- The probabilities, from the arguments. -/
theorem probs_eq (c : Dev nD) : probs m c = classify (flat m c) (m ((c : Thread nD τ).loc main_arg1)) (biasRow (m ((c : Thread nD τ).loc main_arg2)))
    (m ((c : Thread nD τ).loc main_arg4)) (biasRow (m ((c : Thread nD τ).loc main_arg5))) := by
  unfold probs
  rw [X_eq, W₁_eq, B₁_eq, W₂_eq, B₂_eq]

/-- The count row with its unit axis dropped is the advanced counters, from the arguments. -/
theorem counts_eq (c : Dev nD) : shapeCast S100 (counts m c) shapeCasts_S1x100_S100
    = newFreq (m ((c : Thread nD τ).loc main_arg3)) (hiddenLayer (flat m c) (m ((c : Thread nD τ).loc main_arg1)) (biasRow (m ((c : Thread nD τ).loc main_arg2)))) := by
  funext i
  obtain ⟨j, rfl⟩ : ∃ j : Fin 100, i = ix1 j := ⟨i 0, eq_ix1 i⟩
  rw [Idealize.ShloMosaic.shapeCast_dropUnit_apply ![100] (counts m c) shapeCasts_S1x100_S100 (ix1 j)]
  show Fq m c (ix2 0 j) + firstRows (rowFires (H m c) j) = _
  unfold H
  rw [Fq_eq, X_eq, W₁_eq, B₁_eq]
  rfl

/-- After the call the host drops the count row's unit axis. -/
theorem tail_counts (c : Dev nD) :
    Pipeline.afterTail₀ cfgs (dats m) 0 (V0 m) [hostOps1] c main_v5 = shapeCast S100 (counts m c) shapeCasts_S1x100_S100 := by
  unfold Pipeline.afterTail₀
  show StableHlo.after hostOps1 _ (Proc.devRef .tc main_v5) = _
  after_results
  exact congrArg (fun a => shapeCast S100 a shapeCasts_S1x100_S100)
    ((Pipeline.withArrays_arr spec0 launch0.win.arr_inj c _ _ 7).trans (final_counts m c))

/-- Every weakly fair execution of the kernel program ends with the first result at the class probabilities, the
    second at the advanced counters, both as functions of the arguments, and the arguments unchanged. -/
theorem run : θ_run defs (onTc (τ := τ) (main (F := Ideal))) ⟨m, fun _ => 0, ρ⟩ (fun r => ∀ c : Dev nD,
      r.2.mem ((c.tc : Thread nD τ).loc main_v4_0) = classify (flat m c) (m ((c : Thread nD τ).loc main_arg1)) (biasRow (m ((c : Thread nD τ).loc main_arg2)))
          (m ((c : Thread nD τ).loc main_arg4)) (biasRow (m ((c : Thread nD τ).loc main_arg5)))
      ∧ r.2.mem ((c.tc : Thread nD τ).loc main_v5) = newFreq (m ((c : Thread nD τ).loc main_arg3))
          (hiddenLayer (flat m c) (m ((c : Thread nD τ).loc main_arg1)) (biasRow (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).1 6).trans (final_probs m c)).trans (probs_eq m c),
      (((h c).2 main_v5 (Pipeline.mem_restRefs_of main_v5 (by decide) (by decide))).trans (tail_counts m c)).trans (counts_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.RunValue

end
-- ==== Proof.ReferenceValue.lean ====
/-
  The reference's two results, read entry by entry, are the classifier and the advanced counters of Classifier.lean.

  Its hidden layer is the host's dot product of the flattened input with `W₁` plus the bias made a row and repeated down
  the rows, rectified by a maximum with a splat of 0: `hiddenLayer`. The logits are the same affine form over the hidden
  layer: `logits`. A row's maximum is the host's fold of `max` over the row's ten entries from `-∞`, joined once more with
  `-∞`; the row's exponentials are summed from 0, and the quotient is the softmax: `classify`. The counters are the old
  ones plus the host's sum, over the rows of the hidden layer with the last row sliced away, of the bit "above zero" read as
  a number: `newFreq`.
-/
import proofs.«170248_j59803124630057_1_alg».proof.Proof.Gen.ReferenceIdeal.Read
import proofs.«170248_j59803124630057_1_alg».proof.Proof.Classifier
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib.Dense Cert.Classifier

variable (x0 : (⟨S65536x28x28, .f32⟩ : BufTy).Contents (Elt Ideal)) (x1 : (⟨S784x100, .f32⟩ : BufTy).Contents (Elt Ideal))
  (x2 x3 : (⟨S100, .f32⟩ : BufTy).Contents (Elt Ideal)) (x4 : (⟨S100x10, .f32⟩ : BufTy).Contents (Elt Ideal))
  (x5 : (⟨S10, .f32⟩ : BufTy).Contents (Elt Ideal))

/-- The flattened input: row `r` holds the 784 pixels of image `r`. Never read at an index: both programs flatten alike. -/
abbrev flat : (⟨2, ![65536, 784]⟩ : Shape).Idx → EReal := val_main_v0 (F := Ideal) x0

/-- The splat of 0 the rectifier compares with reads the word of 0 everywhere. -/
theorem relu_zero (i : S65536x100.Idx) : val_main_call0_v0 (F := Ideal) i = zeroW := by
  rw [val_main_call0_v0_apply, val_main_call0_cst_apply]; rfl

/-- The hidden layer. -/
theorem hidden_eq : val_main_v5 (F := Ideal) x0 x1 x2 = hiddenLayer (flat x0) x1 (biasRow x2) := by
  funext i
  rw [val_main_v5_apply, relu_zero]
  have e : val_main_v4 (F := Ideal) x0 x1 x2 = affine (flat x0) x1 (biasRow x2) :=
    host_affine_row (M := 65536) (K := 784) (N := 100) (flat x0) x1 x2 bcast_S100_S1x100_1 bcast_S1x100_S65536x100_0_1
  rw [e]
  rfl

/-- The logits. -/
theorem logits_eq : val_main_v15 (F := Ideal) x0 x1 x2 x4 x5 = logits (val_main_v5 (F := Ideal) x0 x1 x2) x4 (biasRow x5) :=
  host_affine_row (M := 65536) (K := 100) (N := 10) (val_main_v5 (F := Ideal) x0 x1 x2) x4 x5 bcast_S10_S1x10_1 bcast_S1x10_S65536x10_0_1

/-- Inserting coordinate `k` on axis 1 of the row index `r` gives `(r, k)`. -/
theorem lift_row (h : S65536x10.Reduces [1] S65536) (r : Fin 65536) (k : Fin 10) :
    h.lift (ix1 r) k = ix2 r k := by
  funext a; apply Fin.ext
  match a with
  | ⟨0, _⟩ => rfl
  | ⟨1, _⟩ => rfl

/-- The host's maximum over a row's ten logits, from `-∞`. -/
theorem rowmax_eq (L : (⟨2, ![65536, 10]⟩ : Shape).Idx → EReal) (r : Fin 65536) :
    Host.reduce (FloatOps.maximumf (F := Ideal) (φ := .f32)) L (val_main_cst_1 (F := Ideal)) reducesTo_S65536x10_S65536_d1 h_S_ (ix1 r)
      = (Finset.univ : Finset (Fin 10)).fold max negInfW fun k => L (ix2 r k) := by
  have h : S65536x10.Reduces [1] S65536 := by decide
  show Host.reduce (max : EReal → EReal → EReal) L (val_main_cst_1 (F := Ideal)) reducesTo_S65536x10_S65536_d1 h_S_ (ix1 r) = _
  rw [Host.reduce_eq_fold_single (max : EReal → EReal → EReal) L _ reducesTo_S65536x10_S65536_d1 h h_S_ (ix1 r)]
  rw [show (L ∘ h.lift (ix1 r)) = fun k => L (ix2 r k) from funext fun k => congrArg L (lift_row h r k)]
  exact congrArg (fun b => (Finset.univ : Finset (Fin 10)).fold max b fun k => L (ix2 r k)) (rfl : val_main_cst_1 (F := Ideal) (Shape.Idx.first h_S_) = negInfW)

/-- The softmax stage over the logits stage. -/
theorem softmax_eq : val_main_v26 (F := Ideal) x0 x1 x2 x4 x5 = softmax (val_main_v15 (F := Ideal) x0 x1 x2 x4 x5) := by
  funext i
  obtain ⟨r, o, rfl⟩ : ∃ (r : Fin 65536) (o : Fin 10), i = ix2 r o := ⟨i 0, i 1, eq_ix2 i⟩
  have hrow : ∀ k : Fin 10, idx_main_v19 (idx_main_v20 (ix2 r k)) = ix1 r := fun k => by
    funext a; apply Fin.ext
    match a with
    | ⟨0, _⟩ => rfl
  have hrow' : idx_main_v24 (idx_main_v25 (ix2 r o)) = ix1 r := by
    funext a; apply Fin.ext
    match a with
    | ⟨0, _⟩ => rfl
  have hlane : ∀ k : Fin 10, idx_main_v23 (ix1 r) k = ix2 r k := fun k => by
    funext a; apply Fin.ext
    match a with
    | ⟨0, _⟩ => rfl
    | ⟨1, _⟩ => rfl
  have hmax : ∀ k : Fin 10, val_main_v20 (F := Ideal) x0 x1 x2 x4 x5 (ix2 r k) = rowMax (val_main_v15 (F := Ideal) x0 x1 x2 x4 x5) r := by
    intro k
    rw [val_main_v20_apply, val_main_v19_apply, hrow k, val_main_v18_apply, val_main_v17_apply, val_main_cst_2_apply]
    unfold val_main_v16
    rw [rowmax_eq]
    rfl
  have hexp : ∀ k : Fin 10, val_main_v22 (F := Ideal) x0 x1 x2 x4 x5 (ix2 r k)
      = Ideal.exp (val_main_v15 (F := Ideal) x0 x1 x2 x4 x5 (ix2 r k) - rowMax (val_main_v15 (F := Ideal) x0 x1 x2 x4 x5) r) := by
    intro k
    rw [val_main_v22_apply, val_main_v21_apply, hmax k]
    rfl
  rw [val_main_v26_apply, val_main_v25_apply, val_main_v24_apply, hrow', val_main_v23_apply, val_main_cst_3_apply, hexp o]
  simp only [hlane, hexp]
  show Ideal.div _ (zeroW + _) = _
  rw [zeroW_eq, zero_add]
  rfl

/-- The class probabilities. -/
theorem probs_eq : val_main_v26 (F := Ideal) x0 x1 x2 x4 x5 = classify (flat x0) x1 (biasRow x2) x4 (biasRow x5) := by
  rw [softmax_eq, logits_eq, hidden_eq]
  rfl

/-- The advanced counters. -/
theorem freq_eq : val_main_v11 (F := Ideal) x0 x1 x2 x3 = newFreq x3 (val_main_v5 (F := Ideal) x0 x1 x2) := by
  funext i
  obtain ⟨j, rfl⟩ : ∃ j : Fin 100, i = ix1 j := ⟨i 0, eq_ix1 i⟩
  rw [val_main_v11_apply, val_main_v10_apply, val_main_cst_0_apply]
  show x3 (ix1 j) + (zeroW + ∑ k : Fin 65535, val_main_v9 (F := Ideal) x0 x1 x2 (idx_main_v10 (ix1 j) k)) = _
  rw [zeroW_eq, zero_add]
  refine congrArg (x3 (ix1 j) + ·) (Finset.sum_congr rfl fun k _ => ?_)
  rw [val_main_v9_apply, val_main_v8_apply, val_main_v7_apply, val_main_cst_apply, val_main_v6_apply]
  have hi : idx_main_v6 (idx_main_v10 (ix1 j) k) = ix2 (⟨k.val, by have := k.isLt; omega⟩ : Fin 65536) j := by
    funext a; apply Fin.ext
    match a with
    | ⟨0, _⟩ => rfl
    | ⟨1, _⟩ => rfl
  rw [hi]
  unfold rowFires
  rw [dif_pos (show k.val < 65536 by have := k.isLt; omega)]
  rfl

end Cert.ReferenceIdeal.RefValue

end
-- ==== Proof.lean ====
/-
  A two-layer classifier with a firing counter, computed tile by tile, against the same computed at once.

  Both programs take 65536 images of 28 × 28 pixels, flatten each to 784 numbers, pass it through a rectified affine
  layer into 100 hidden units and an affine layer into 10 logits, and return the softmax of each row's logits; beside
  that they advance a counter per hidden unit by the number of images, among all but the last one, at which the unit is
  above zero. On the extended reals a change of float format is the identity and a matrix product is the plain sum of
  products, so every row of the probabilities is the same function of the same row of the input on both sides
  (Classifier.lean: `classify`), whether the rows are taken 2048 at a time or all at once. The kernel counts by tiles: in
  each of 32 tiles it sums, down the tile's 2048 rows, the bit "above zero" times a mask that is zero at row 65535 only,
  and adds the tile's sum to the counts it carries from tile to tile, starting from the counter. The reference slices the
  last row away and sums once. Addition on the extended reals is commutative and associative, the mask's one is a unit and
  its zero annihilates a bit, so the two counts agree (`tally_last`); no input need be finite for any of this.

  The frames of the two kernel programs are the generated frame certificates; the reference's frame is its generated run
  with the results dropped. The kernel's idealisation rewrote nothing, so there is nothing to preserve.
-/
import proofs.«170248_j59803124630057_1_alg».proof.Defs
import proofs.«170248_j59803124630057_1_alg».proof.Proof.Gen.Kernel
import proofs.«170248_j59803124630057_1_alg».proof.Proof.Gen.Kernel.Frame
import proofs.«170248_j59803124630057_1_alg».proof.Proof.Gen.KernelIdeal
import proofs.«170248_j59803124630057_1_alg».proof.Proof.Gen.KernelIdeal.Frame
import proofs.«170248_j59803124630057_1_alg».proof.Proof.Gen.ReferenceIdeal
import proofs.«170248_j59803124630057_1_alg».proof.Proof.Gen.ReferenceIdeal.Run
import proofs.«170248_j59803124630057_1_alg».proof.Proof.Gen.ReferenceIdeal.Read
import proofs.«170248_j59803124630057_1_alg».proof.Proof.Gen.Pre_finite_inputs
import proofs.«170248_j59803124630057_1_alg».proof.Proof.KernelRun
import proofs.«170248_j59803124630057_1_alg».proof.Proof.ReferenceValue
import Idealize.ShloMosaic.Adequacy
import Idealize.ShloMosaic.Init

noncomputable section

namespace Cert.Proof

open Idealize.ShloMosaic Idealize.SL.Sem Cert.Classifier

theorem frame_kernel : Cert.frame_Kernel := fun m ρ _ => Cert.Kernel.Gen.frame m ρ

theorem frame_kernelIdeal : Cert.frame_KernelIdeal := fun m ρ _ => Cert.KernelIdeal.Gen.frame m ρ

/-- The reference changes none of its arguments: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the six arguments both programs end with the class probabilities of every image and the
    advanced counters, as the same functions of the arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [a0, a1, a2, a4, a5]
    exact (Cert.ReferenceIdeal.Read.val_main_v26_eq _ _ _ _ _).trans (Cert.ReferenceIdeal.RefValue.probs_eq _ _ _ _ _)
  · rw [a0, a1, a2, a3]
    exact ((Cert.ReferenceIdeal.Read.val_main_v11_eq _ _ _ _).trans (Cert.ReferenceIdeal.RefValue.freq_eq _ _ _ _)).trans
      (congrArg (newFreq _) (Cert.ReferenceIdeal.RefValue.hidden_eq _ _ _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
